-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S64x64 : Shape := ⟨2, ![64, 64]⟩
abbrev S64x4 : Shape := ⟨2, ![64, 4]⟩
abbrev S4x64 : Shape := ⟨2, ![4, 64]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S64x64 : S_.BroadcastsInDim S64x64 (![] : Fin 0 → Fin S64x64.rank)
  reducesTo_S64x64_S_d0_1 : S64x64.ReducesTo [0, 1] S_
  bcast_S_S64x4 : S_.BroadcastsInDim S64x4 (![] : Fin 0 → Fin S64x4.rank)
  reducesTo_S64x4_S_d0_1 : S64x4.ReducesTo [0, 1] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg4 : FVec F S64x4 .f32) (main_arg5 : FVec F S4x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x4 .f32 := Host.absf main_arg4
  let main_cst_6 : FVec F S_ .f32 := constant S_ .f32 0x7F800000#32
  let main_v20 : FVec F S64x4 .f32 := broadcastInDim S64x4 ![] bcast_S_S64x4 main_cst_6
  let main_v21 : IVec S64x4 1 := cmpf .olt main_v19 main_v20
  let main_c_7 : IVec S_ 1 := constantI S_ 1 1#1
  let main_v22 : IVec S_ 1 := (fun x v => Host.reduce IntOp.andi x v reducesTo_S64x4_S_d0_1 h_S_) main_v21 main_c_7
  let main_v23 : IVec S_ 1 := andi main_v18 main_v22
  let main_v24 : FVec F S4x64 .f32 := Host.absf main_arg5
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  main_v28

def fn {F : FTy → Type} [FloatOps F] (main_arg0 : FVec F S4x4096x4096 .f32) (main_arg1 : FVec F S4096x4096 .f32) (main_arg2 : FVec F S4096 .f32) (main_arg3 : FVec F S64x64 .f32) (main_arg4 : FVec F S64x4 .f32) (main_arg5 : FVec F S4x64 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S64x64 : Shape := ⟨2, ![64, 64]⟩
abbrev S64x4 : Shape := ⟨2, ![64, 4]⟩
abbrev S4x64 : Shape := ⟨2, ![4, 64]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S_ : Shape := ⟨0, ![]⟩
abbrev S16384x4096 : Shape := ⟨2, ![16384, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 24
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S64x64, .f32⟩
  | .hbm, ⟨4, _⟩ => ⟨S64x4, .f32⟩
  | .hbm, ⟨5, _⟩ => ⟨S4x64, .f32⟩
  | .hbm, ⟨6, _⟩ => ⟨S64x64, .f32⟩
  | .hbm, ⟨7, _⟩ => ⟨S64x1x64x1, .f32⟩
  | .hbm, ⟨8, _⟩ => ⟨S1x64x1x64, .f32⟩
  | .hbm, ⟨9, _⟩ => ⟨S64x64x64x64, .f32⟩
  | .hbm, ⟨10, _⟩ => ⟨S64x64x64x64, .f32⟩
  | .hbm, ⟨11, _⟩ => ⟨S64x64x64x64, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S16384x4096, .f32⟩
  | .hbm, ⟨19, _⟩ => ⟨S16384x4096, .bf16⟩
  | .hbm, ⟨20, _⟩ => ⟨S4096x4096, .bf16⟩
  | .hbm, ⟨21, _⟩ => ⟨S1x4096, .f32⟩
  | .hbm, ⟨22, _⟩ => ⟨S16384x4096, .f32⟩
  | .hbm, ⟨23, _⟩ => ⟨S4x4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S64x64_S64x1x64x1_0_2 : S64x64.BroadcastsInDim S64x1x64x1 (![0, 2] : Fin 2 → Fin S64x1x64x1.rank)
  bcast_S64x64_S1x64x1x64_1_3 : S64x64.BroadcastsInDim S1x64x1x64 (![1, 3] : Fin 2 → Fin S1x64x1x64.rank)
  bcast_S64x1x64x1_S64x64x64x64_0_1_2_3 : S64x1x64x1.BroadcastsInDim S64x64x64x64 (![0, 1, 2, 3] : Fin 4 → Fin S64x64x64x64.rank)
  bcast_S1x64x1x64_S64x64x64x64_0_1_2_3 : S1x64x1x64.BroadcastsInDim S64x64x64x64 (![0, 1, 2, 3] : Fin 4 → Fin S64x64x64x64.rank)
  shapeCasts_S64x64x64x64_S4096x4096 : S64x64x64x64.ShapeCasts S4096x4096
  bcast_S_S4096x4096 : S_.BroadcastsInDim S4096x4096 (![] : Fin 0 → Fin S4096x4096.rank)
  transposes_S4096x4096_S4096x4096_1_0 : S4096x4096.Transposes [1, 0] S4096x4096
  shapeCasts_S4x4096x4096_S16384x4096 : S4x4096x4096.ShapeCasts S16384x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S4x4096x4096 : S16384x4096.ShapeCasts S4x4096x4096
  dot_S64x4_S4x64_S64x64_1_0_0_1_n_n_wf : DotDims.WF S64x4 S4x64 S64x64 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S64x4_S4x64_S64x64_1_0_0_1_n_n : DotDims S64x4 S4x64 S64x64 where
  lhsContracting := [1]
  rhsContracting := [0]
  lhsNonContracting := [0]
  rhsNonContracting := [1]
  lhsBatch := []
  rhsBatch := []
  wf := dot_S64x4_S4x64_S64x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v7) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S64x64 : Shape := ⟨2, ![64, 64]⟩
abbrev S64x4 : Shape := ⟨2, ![64, 4]⟩
abbrev S4x64 : Shape := ⟨2, ![4, 64]⟩
abbrev S1x1x4096 : Shape := ⟨3, ![1, 1, 4096]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S64x64, .f32⟩
  | .hbm, ⟨4, _⟩ => ⟨S64x4, .f32⟩
  | .hbm, ⟨5, _⟩ => ⟨S4x64, .f32⟩
  | .hbm, ⟨6, _⟩ => ⟨S4x4096x4096, .f32⟩
  | .hbm, ⟨7, _⟩ => ⟨S1x1x4096, .f32⟩
  | .hbm, ⟨8, _⟩ => ⟨S4x4096x4096, .f32⟩
  | .hbm, ⟨9, _⟩ => ⟨S4x4096x4096, .f32⟩
  | .hbm, ⟨10, _⟩ => ⟨S64x64, .f32⟩
  | .hbm, ⟨11, _⟩ => ⟨S64x1x64x1, .f32⟩
  | .hbm, ⟨12, _⟩ => ⟨S1x64x1x64, .f32⟩
  | .hbm, ⟨13, _⟩ => ⟨S64x64x64x64, .f32⟩
  | .hbm, ⟨14, _⟩ => ⟨S64x64x64x64, .f32⟩
  | .hbm, ⟨15, _⟩ => ⟨S64x64x64x64, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4x4096x4096, .f32⟩
  | .hbm, ⟨21, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S64x64_S64x1x64x1_0_2 : S64x64.BroadcastsInDim S64x1x64x1 (![0, 2] : Fin 2 → Fin S64x1x64x1.rank)
  bcast_S64x64_S1x64x1x64_1_3 : S64x64.BroadcastsInDim S1x64x1x64 (![1, 3] : Fin 2 → Fin S1x64x1x64.rank)
  bcast_S64x1x64x1_S64x64x64x64_0_1_2_3 : S64x1x64x1.BroadcastsInDim S64x64x64x64 (![0, 1, 2, 3] : Fin 4 → Fin S64x64x64x64.rank)
  bcast_S1x64x1x64_S64x64x64x64_0_1_2_3 : S1x64x1x64.BroadcastsInDim S64x64x64x64 (![0, 1, 2, 3] : Fin 4 → Fin S64x64x64x64.rank)
  shapeCasts_S64x64x64x64_S4096x4096 : S64x64x64x64.ShapeCasts S4096x4096
  bcast_S_S4096x4096 : S_.BroadcastsInDim S4096x4096 (![] : Fin 0 → Fin S4096x4096.rank)
  dot_S4x4096x4096_S4096x4096_S4x4096x4096_2_1_01_0_n_n_wf : DotDims.WF S4x4096x4096 S4096x4096 S4x4096x4096 [2] [1] [0, 1] [0] [] []
  dot_S64x4_S4x64_S64x64_1_0_0_1_n_n_wf : DotDims.WF S64x4 S4x64 S64x64 [1] [0] [0] [1] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S64x4_S4x64_S64x64_1_0_0_1_n_n : DotDims S64x4 S4x64 S64x64 where
  lhsContracting := [1]
  rhsContracting := [0]
  lhsNonContracting := [0]
  rhsNonContracting := [1]
  lhsBatch := []
  rhsBatch := []
  wf := dot_S64x4_S4x64_S64x64_1_0_0_1_n_n_wf

class Facts : Prop extends Facts₀ where

variable [Facts]
-- ==== Proof.Pieces.lean ====
/-
  What each control case of the kernel body leaves, as a pure term of what it loaded.

  The body keeps a running sum in a scratch block carried from one grid point to the next. At the first step of the
  contracted axis it stores the zero block and then adds the step's product to what it reads back; at the later steps
  it adds the step's product to what the step before left; at the last step it also stores the sum plus the bias row
  into the output block.
-/
import proofs.«100318_j86646670229807_1_alg».proof.Proof.Gen.KernelIdeal.Frame
import Idealize.ShloMosaic.Lib.Pipeline.Value
import Idealize.ShloMosaic.Lib.Tactic

noncomputable section

namespace Cert.KernelIdeal.KV

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]

theorem hz : (![0, 0] : Fin 2 → Nat) = fun _ => 0 := funext fun a => by fin_cases a <;> rfl

/-- A step that is neither first nor last: the scratch block ends at (what the step before left) + a · b. -/
theorem scratch_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread, View.ld_unit_zero (S := S1024x1024) hz]

/-- The first step: the zero block is stored, read back, and the scratch block ends at 0 + a · b. -/
theorem scratch_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- The last step: the scratch block ends at (what the step before left) + a · b, -/
theorem scratch_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S1024x1024) hz]

/-- and the output block at that sum plus the bias row spread over the rows. -/
theorem out_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.readCov_unit_zero (S := S1024x1024) _ hz, View.ld_unit_zero (S := S1024x1024) hz, View.ld_unit_zero (S := S1x1024) hz]

end Cert.KernelIdeal.KV

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.Payload.lean ====
/-
  The body's three stored values read at an index, at the ideal instance (floats are extended reals, a change of float
  format is the identity): the zero block; the accumulator plus one step's product, whose entry (p, q) is
  acc (p, q) + Σ_k a (p, k) · b (k, q); and the accumulator plus the bias row, whose entry (p, q) is acc (p, q) + bias (0, q).
-/
import proofs.«100318_j86646670229807_1_alg».proof.Proof.Gen.KernelIdeal.Skeleton
import proofs.«100318_j86646670229807_1_alg».proof.Proof.LibRowOps
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KV

open Cert.KernelIdeal Cert.KernelIdeal.Gen
open Idealize.ShloMosaic Idealize.ShloMosaic.ValueIdx

/-- The block stored at the first step of the contracted axis is zero everywhere. -/
theorem pay1_apply (j : S1024x1024.Idx) : k0_pay1 (F := Ideal) j = 0 := by
  unfold k0_pay1
  simp only [shapeCast_self]
  exact Ideal.ofBits_zero_f32

/-- One accumulation step at (p, q): the accumulator's entry plus the row-by-column product of the two blocks. -/
theorem pay2_apply (acc : Vec Ideal S1024x1024 .f32) (a b : Vec Ideal S1024x1024 .bf16) (p q : Fin 1024) :
    k0_pay2 (F := Ideal) acc a b (ix2 p q) = acc (ix2 p q) + ∑ k : Fin 1024, a (ix2 p k) * b (ix2 k q) := by
  have hm := Cert.RowOps.matmul_apply (M := 1024) (K := 1024) (N := 1024) (φ₁ := .bf16) (φ₂ := .bf16)
    dot_S1024x1024_S1024x1024_S1024x1024_1_0_0_1_n_n_wf none a b p q
  unfold k0_pay2
  simp only [shapeCast_self]
  exact congrArg (acc (ix2 p q) + ·) hm

/-- The output's value at (p, q): the accumulator's entry plus the bias row's entry of column q. -/
theorem pay3_apply (acc : Vec Ideal S1024x1024 .f32) (bias : Vec Ideal S1x1024 .f32) (p q : Fin 1024) :
    k0_pay3 (F := Ideal) acc bias (ix2 p q) = acc (ix2 p q) + bias (ix2 (0 : Fin 1) q) := by
  have hb := Cert.RowOps.rowParam_spread_apply (a := 1024) (b := 1024) bias shapeCasts_S1x1024_S1x1024 broadcasts_S1x1024_S1024x1024 p q
  unfold k0_pay3
  exact congrArg (acc (ix2 p q) + ·) hb

end Cert.KernelIdeal.KV

end
-- ==== Proof.Algebra.lean ====
/-
  The algebraic law that joins the two programs, on the extended reals.

  One output element of the kernel is a chain of four block sums started from zero, each block sum over 1024 consecutive
  positions of the contracted axis, of products x · (w + d), plus the bias entry; the same element of the reference is
  (Σ x · w + bias) + Σ x · d over all 4096 positions. With every factor a real number the two agree: the blocks partition
  the axis, and x · (w + d) = x · w + x · d.
-/
import Mathlib.Data.EReal.Basic
import Mathlib.Algebra.BigOperators.Fin

noncomputable section

namespace Cert.LoKr

open scoped BigOperators

/-- Position `k` of block `j` of the contracted axis: `1024 j + k`. -/
def kb (j : Fin 4) (k : Fin 1024) : Fin 4096 := ⟨j.val * 1024 + k.val, by have := j.isLt; have := k.isLt; omega⟩

/-- The sum of `f` over block `j` (zero past the fourth block). -/
def blockSum (f : Fin 4096 → EReal) (j : ℕ) : EReal := if h : j < 4 then ∑ k : Fin 1024, f (kb ⟨j, h⟩ k) else 0

/-- The accumulator after block `n`: zero, then the block sums added first to last. -/
def partialSum (f : Fin 4096 → EReal) : ℕ → EReal
  | 0 => 0 + blockSum f 0
  | n + 1 => partialSum f n + blockSum f (n + 1)

/-- The accumulator after the first block is zero plus the first block sum. -/
theorem partialSum_zero (f : Fin 4096 → EReal) : partialSum f 0 = 0 + ∑ k : Fin 1024, f (kb 0 k) := by
  show 0 + blockSum f 0 = _
  unfold blockSum
  rw [dif_pos (by norm_num : (0 : ℕ) < 4)]
  rfl

/-- The accumulator after block `n + 1` is the accumulator after block `n` plus the sum over block `n + 1`. -/
theorem partialSum_succ (f : Fin 4096 → EReal) (n : ℕ) (h : n + 1 < 4) :
    partialSum f (n + 1) = partialSum f n + ∑ k : Fin 1024, f (kb ⟨n + 1, h⟩ k) := by
  show partialSum f n + blockSum f (n + 1) = _
  unfold blockSum
  rw [dif_pos h]

/-- The four blocks partition the axis: `(j, k) ↦ 1024 j + k` is a bijection of `Fin 4 × Fin 1024` onto `Fin 4096`. -/
private theorem kb_bijective : Function.Bijective (fun p : Fin 4 × Fin 1024 => kb p.1 p.2) := by
  rw [Fintype.bijective_iff_injective_and_card]
  refine ⟨?_, by simp⟩
  rintro ⟨j, k⟩ ⟨j', k'⟩ h
  have hv : j.val * 1024 + k.val = j'.val * 1024 + k'.val := congrArg Fin.val h
  have hj := j.isLt; have hj' := j'.isLt; have hk := k.isLt; have hk' := k'.isLt
  have h1 : j.val = j'.val := by omega
  have h2 : k.val = k'.val := by omega
  exact Prod.ext (Fin.ext h1) (Fin.ext h2)

/-- A sum over the whole axis is the sum over the blocks of the block sums. -/
private theorem sum_blocks (f : Fin 4096 → EReal) :
    ∑ k : Fin 4096, f k = ∑ j : Fin 4, ∑ k : Fin 1024, f (kb j k) := by
  rw [← Fintype.sum_prod_type']
  exact (Fintype.sum_bijective _ kb_bijective _ _ (fun _ => rfl)).symm

/-- The chain of four block sums, started from zero, is the sum over the whole axis. -/
private theorem partialSum_three (f : Fin 4096 → EReal) : partialSum f 3 = ∑ k : Fin 4096, f k := by
  have h3 : partialSum f 3 = partialSum f 2 + ∑ k : Fin 1024, f (kb 3 k) := partialSum_succ f 2 (by norm_num)
  have h2 : partialSum f 2 = partialSum f 1 + ∑ k : Fin 1024, f (kb 2 k) := partialSum_succ f 1 (by norm_num)
  have h1 : partialSum f 1 = partialSum f 0 + ∑ k : Fin 1024, f (kb 1 k) := partialSum_succ f 0 (by norm_num)
  rw [h3, h2, h1, partialSum_zero, zero_add, sum_blocks, Fin.sum_univ_four]

/-- The chain of four block sums of x · (w + d), plus b, is (Σ x · w + b) + Σ x · d when x, w and d are real. -/
theorem join (X W D : Fin 4096 → EReal) (b : EReal)
    (hX : ∀ k, ∃ r : ℝ, X k = (r : EReal)) (hW : ∀ k, ∃ r : ℝ, W k = (r : EReal)) (hD : ∀ k, ∃ r : ℝ, D k = (r : EReal)) :
    partialSum (fun k => X k * (W k + D k)) 3 + b = (∑ k : Fin 4096, X k * W k + b) + ∑ k : Fin 4096, X k * D k := by
  -- with real factors the product distributes over the sum, termwise
  have hf : (fun k => X k * (W k + D k)) = fun k => X k * W k + X k * D k := by
    funext k
    obtain ⟨x, hx⟩ := hX k
    obtain ⟨w, hw⟩ := hW k
    obtain ⟨d, hd⟩ := hD k
    rw [hx, hw, hd, ← EReal.coe_add, ← EReal.coe_mul, ← EReal.coe_mul, ← EReal.coe_mul, ← EReal.coe_add, mul_add]
  -- the chain is the whole sum, the sum of sums splits, and adding b commutes past the second sum
  rw [partialSum_three, hf, Finset.sum_add_distrib, add_right_comm]

end Cert.LoKr

end
-- ==== Proof.Blocks.lean ====
/-
  The grid and the blocks. The grid is 16 × 4 × 4, the last axis (the contracted one) fastest: point t has row block
  t / 16, column block (t / 4) mod 4 and contraction step t mod 4. At point t the left operand's block is rows
  1024 (t / 16) + p, columns 1024 (t mod 4) + k of the flattened activations; the right operand's block is rows
  1024 (t mod 4) + k, columns 1024 ((t / 4) mod 4) + q of the transposed weight; the bias block is the column block
  (t / 4) mod 4 of the bias row.
-/
import proofs.«100318_j86646670229807_1_alg».proof.Proof.Gen.KernelIdeal.Frame
import proofs.«100318_j86646670229807_1_alg».proof.Proof.Algebra
import Idealize.ShloMosaic.Lib.ValueIdx
import Idealize.ShloMosaic.Lib.Pipeline.Value

noncomputable section

namespace Cert.KernelIdeal.KV

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The three arrays the region reads, as it finds them, at their literal types. -/
abbrev Xarr (c : Dev nD) : Vec Ideal S16384x4096 .bf16 := V m c main_v7
abbrev WTarr (c : Dev nD) : Vec Ideal S4096x4096 .bf16 := V m c main_v8
abbrev Barr (c : Dev nD) : Vec Ideal S1x4096 .f32 := V m c main_v9

/-- The three input blocks at a point, at their literal types. -/
abbrev ablk (c : Dev nD) (t : Fin cfg0.N) : Vec Ideal S1024x1024 .bf16 := iblk m c 0 t
abbrev bblk (c : Dev nD) (t : Fin cfg0.N) : Vec Ideal S1024x1024 .bf16 := iblk m c 1 t
abbrev biasblk (c : Dev nD) (t : Fin cfg0.N) : Vec Ideal S1x1024 .f32 := iblk m c 2 t

theorem N_eq : cfg0.N = 256 := N_0

/-- Row 1024 (t / 16) + p of the flattened activations and of the result. -/
def rowIx (t : Fin cfg0.N) (p : Fin 1024) : Fin 16384 :=
  ⟨t.val / 16 * 1024 + p.val, by have := t.isLt; have := N_eq; have := p.isLt; omega⟩
/-- Column 1024 ((t / 4) mod 4) + q of the transposed weight, of the bias row and of the result. -/
def colIx (t : Fin cfg0.N) (q : Fin 1024) : Fin 4096 :=
  ⟨t.val / 4 % 4 * 1024 + q.val, by have := q.isLt; omega⟩
/-- Position 1024 (t mod 4) + k of the contracted axis. -/
def stepIx (t : Fin cfg0.N) (k : Fin 1024) : Fin 4096 :=
  ⟨t.val % 4 * 1024 + k.val, by have := k.isLt; omega⟩

theorem stepIx_eq_kb (t : Fin cfg0.N) (k : Fin 1024) : stepIx t k = Cert.LoKr.kb ⟨t.val % 4, Nat.mod_lt _ (by norm_num)⟩ k := rfl

/-- The printed index maps, decided over the grid's 256 points. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The left operand's block at point t, entry (p, k). -/
theorem ablk_apply (c : Dev nD) (t : Fin cfg0.N) (p k : Fin 1024) :
    ablk m c t (ix2 p k) = Xarr m c (ix2 (rowIx t p) (stepIx t k)) := by
  obtain ⟨e0, e1, -⟩ := idx_facts t
  unfold ablk iblk
  rw [View.read_apply]
  show V m c main_v7 _ = V m c main_v7 _
  refine congrArg (V m c main_v7) (funext fun a => Fin.ext ?_)
  match a with
  | ⟨0, _⟩ => show win0_0.index t (0 : Fin 2) * 1024 + 1 * p.val = t.val / 16 * 1024 + p.val; rw [e0]; omega
  | ⟨1, _⟩ => show win0_0.index t (1 : Fin 2) * 1024 + 1 * k.val = t.val % 4 * 1024 + k.val; rw [e1]; omega

/-- The right operand's block at point t, entry (k, q). -/
theorem bblk_apply (c : Dev nD) (t : Fin cfg0.N) (k q : Fin 1024) :
    bblk m c t (ix2 k q) = WTarr m c (ix2 (stepIx t k) (colIx t q)) := by
  obtain ⟨-, -, e0, e1, -⟩ := idx_facts t
  unfold bblk iblk
  rw [View.read_apply]
  show V m c main_v8 _ = V m c main_v8 _
  refine congrArg (V m c main_v8) (funext fun a => Fin.ext ?_)
  match a with
  | ⟨0, _⟩ => show win0_1.index t (0 : Fin 2) * 1024 + 1 * k.val = t.val % 4 * 1024 + k.val; rw [e0]; omega
  | ⟨1, _⟩ => show win0_1.index t (1 : Fin 2) * 1024 + 1 * q.val = t.val / 4 % 4 * 1024 + q.val; rw [e1]; omega

/-- The bias block at point t, entry (0, q). -/
theorem biasblk_apply (c : Dev nD) (t : Fin cfg0.N) (q : Fin 1024) :
    biasblk m c t (ix2 (0 : Fin 1) q) = Barr m c (ix2 (0 : Fin 1) (colIx t q)) := by
  obtain ⟨-, -, -, -, e0, e1, -⟩ := idx_facts t
  unfold biasblk iblk
  rw [View.read_apply]
  show V m c main_v9 _ = V m c main_v9 _
  refine congrArg (V m c main_v9) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = t.val / 4 % 4 * 1024 + q.val; rw [e1]; omega

end Cert.KernelIdeal.KV

end
-- ==== Proof.Accum.lean ====
/-
  The running sum. After the body at point t the carried scratch block holds, at (p, q), the chain of the block sums of
  x[row, k] · wt[k, col] over the contraction steps 0 … t mod 4, started from zero and added first to last, where
  row = 1024 (t / 16) + p and col = 1024 ((t / 4) mod 4) + q; at the points of the last step the output block holds that
  chain plus the bias entry of column col. By induction on the point: a point of step 0 resets, a later point adds its
  block sum to what the point before left, and the point before has the same row and column blocks.
-/
import proofs.«100318_j86646670229807_1_alg».proof.Proof.Pieces
import proofs.«100318_j86646670229807_1_alg».proof.Proof.Payload
import proofs.«100318_j86646670229807_1_alg».proof.Proof.Blocks

noncomputable section

namespace Cert.KernelIdeal.KV

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The products summed for the result's entry (r, o), along the contracted axis. -/
def term (c : Dev nD) (r : Fin 16384) (o : Fin 4096) : Fin 4096 → EReal :=
  fun k => Xarr m c (ix2 r k) * WTarr m c (ix2 k o)

/-- A point of the first step leaves 0 + a · b in the scratch block. -/
theorem scratch_first (c : Dev nD) (t : Fin cfg0.N) (h0 : t.val % 4 = 0) :
    (outsAt0 m c t.val t.isLt).2 = k0_pay2 (F := Ideal) (k0_pay1 (F := Ideal)) (ablk m c t) (bblk m c t) := by
  have h1 : ¬t.val % 4 = 3 := by omega
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (ablk m c t) (bblk m c t) (biasblk m c t)

/-- A point of a later step leaves (what the point before left) + a · b in the scratch block. -/
theorem scratch_step (c : Dev nD) (t : Fin cfg0.N) (h0 : ¬t.val % 4 = 0) :
    (outsAt0 m c t.val t.isLt).2
      = k0_pay2 (F := Ideal) (outsAt0 m c (t.val - 1) (Nat.lt_of_le_of_lt (Nat.sub_le _ _) t.isLt)).2 (ablk m c t) (bblk m c t) := by
  by_cases h1 : t.val % 4 = 3
  · rw [outsAt0_C m c t h0 h1]
    dsimp only
    exact scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (ablk m c t) (bblk m c t) (biasblk m c t)
      (outsAt0 m c (t.val - 1) (Nat.lt_of_le_of_lt (Nat.sub_le _ _) t.isLt)).2
  · rw [outsAt0_B m c t h0 h1]
    dsimp only
    exact scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (ablk m c t) (bblk m c t) (biasblk m c t)
      (outsAt0 m c (t.val - 1) (Nat.lt_of_le_of_lt (Nat.sub_le _ _) t.isLt)).2

/-- A point of the last step leaves (its scratch block) + bias in the output block. -/
theorem out_last (c : Dev nD) (t : Fin cfg0.N) (h3 : t.val % 4 = 3) :
    (outsAt0 m c t.val t.isLt).1 = k0_pay3 (F := Ideal) (outsAt0 m c t.val t.isLt).2 (biasblk m c t) := by
  have h0 : ¬t.val % 4 = 0 := by omega
  rw [outsAt0_C m c t h0 h3]
  dsimp only
  rw [scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (ablk m c t) (bblk m c t) (biasblk m c t)
      (outsAt0 m c (t.val - 1) (Nat.lt_of_le_of_lt (Nat.sub_le _ _) t.isLt)).2]
  exact out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (ablk m c t) (bblk m c t) (biasblk m c t)
      (outsAt0 m c (t.val - 1) (Nat.lt_of_le_of_lt (Nat.sub_le _ _) t.isLt)).2

/-- One step's product at (p, q) is the block sum of the terms over the step's 1024 positions. -/
theorem step_sum (c : Dev nD) (t : Fin cfg0.N) (p q : Fin 1024) :
    ∑ k : Fin 1024, ablk m c t (ix2 p k) * bblk m c t (ix2 k q)
      = ∑ k : Fin 1024, term m c (rowIx t p) (colIx t q) (stepIx t k) :=
  Finset.sum_congr rfl fun k _ => by rw [ablk_apply, bblk_apply]; rfl

/-- THE INVARIANT: the scratch block after point n, at (p, q), is the chain of block sums up to step n mod 4. -/
theorem scratchAt_eq (c : Dev nD) (n : ℕ) : ∀ (hn : n < cfg0.N) (p q : Fin 1024),
    (outsAt0 m c n hn).2 (ix2 p q)
      = Cert.LoKr.partialSum (term m c (rowIx ⟨n, hn⟩ p) (colIx ⟨n, hn⟩ q)) (n % 4) := by
  induction n with
  | zero =>
    intro hn p q
    refine (congrFun (scratch_first m c ⟨0, hn⟩ rfl) (ix2 p q)).trans ?_
    rw [pay2_apply (k0_pay1 (F := Ideal)) (ablk m c ⟨0, hn⟩) (bblk m c ⟨0, hn⟩) p q, pay1_apply, step_sum,
      Cert.LoKr.partialSum_zero]
    rfl
  | succ n ih =>
    intro hn p q
    have hN := N_eq
    by_cases h0 : (n + 1) % 4 = 0
    · refine (congrFun (scratch_first m c ⟨n + 1, hn⟩ h0) (ix2 p q)).trans ?_
      rw [pay2_apply (k0_pay1 (F := Ideal)) (ablk m c ⟨n + 1, hn⟩) (bblk m c ⟨n + 1, hn⟩) p q, pay1_apply, step_sum,
        h0, Cert.LoKr.partialSum_zero]
      refine congrArg (0 + ·) (Finset.sum_congr rfl fun k _ => congrArg _ (Fin.ext ?_))
      show (n + 1) % 4 * 1024 + k.val = 0 * 1024 + k.val
      rw [h0]
    · have hn' : n < cfg0.N := Nat.lt_of_succ_lt hn
      refine (congrFun (scratch_step m c ⟨n + 1, hn⟩ h0) (ix2 p q)).trans ?_
      rw [pay2_apply _ (ablk m c ⟨n + 1, hn⟩) (bblk m c ⟨n + 1, hn⟩) p q, step_sum]
      show (outsAt0 m c n hn').2 (ix2 p q) + _ = _
      rw [ih hn' p q]
      have er : rowIx ⟨n + 1, hn⟩ p = rowIx ⟨n, hn'⟩ p := Fin.ext (by show (n + 1) / 16 * 1024 + p.val = n / 16 * 1024 + p.val; omega)
      have ec : colIx ⟨n + 1, hn⟩ q = colIx ⟨n, hn'⟩ q := Fin.ext (by show (n + 1) / 4 % 4 * 1024 + q.val = n / 4 % 4 * 1024 + q.val; omega)
      have e4 : (n + 1) % 4 = n % 4 + 1 := by omega
      rw [er, ec, e4, Cert.LoKr.partialSum_succ _ _ (by omega)]
      refine congrArg (_ + ·) (Finset.sum_congr rfl fun k _ => congrArg _ (Fin.ext ?_))
      show (n + 1) % 4 * 1024 + k.val = (n % 4 + 1) * 1024 + k.val
      rw [e4]

/-- The output block at a point of the last step, at (p, q): the whole chain plus the bias entry of the column. -/
theorem outAt_eq (c : Dev nD) (t : Fin cfg0.N) (h3 : t.val % 4 = 3) (p q : Fin 1024) :
    (outsAt0 m c t.val t.isLt).1 (ix2 p q)
      = Cert.LoKr.partialSum (term m c (rowIx t p) (colIx t q)) 3 + Barr m c (ix2 (0 : Fin 1) (colIx t q)) := by
  refine (congrFun (out_last m c t h3) (ix2 p q)).trans ?_
  rw [pay3_apply (outsAt0 m c t.val t.isLt).2 (biasblk m c t) p q, scratchAt_eq m c t.val t.isLt p q, h3, biasblk_apply]

end Cert.KernelIdeal.KV

end
-- ==== Proof.KernelValue.lean ====
/-
  The kernel's result. The region writes its output block back at the points of the last contraction step; what such a
  point writes is block (t / 16, (t / 4) mod 4) of ONE whole-array function of the three arrays the region reads: at
  (r, o) the chain of the four block sums of x[r, k] · wt[k, o] plus bias[o]. Those blocks tile the [16384, 4096] result,
  so the array ends holding that function; the host operation after the region reshapes it to [4, 4096, 4096].
-/
import proofs.«100318_j86646670229807_1_alg».proof.Proof.Accum
import Idealize.ShloMosaic.Lib.StableHlo.Run

noncomputable section

namespace Cert.KernelIdeal.KV

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The region's result as one function of the arrays it reads: at (r, o), the chain of the four block sums of
    x[r, k] · wt[k, o] along the contracted axis, plus the bias entry of column o. -/
def Kspec (X : Vec Ideal S16384x4096 .bf16) (WT : Vec Ideal S4096x4096 .bf16) (B : Vec Ideal S1x4096 .f32) :
    Vec Ideal S16384x4096 .f32 :=
  fun j => Cert.LoKr.partialSum (fun k => X (ix2 (j 0) k) * WT (ix2 k (j 1))) 3 + B (ix2 (0 : Fin 1) (j 1))

/-- The output block at a point of the last step, at any index of the block. -/
theorem outAt_idx (c : Dev nD) (t : Fin cfg0.N) (h3 : t.val % 4 = 3) (y : S1024x1024.Idx) :
    (outsAt0 m c t.val t.isLt).1 y
      = Kspec (Xarr m c) (WTarr m c) (Barr m c) (ix2 (rowIx t (y 0)) (colIx t (y 1))) := by
  obtain ⟨p, q, rfl⟩ : ∃ (p q : Fin 1024), y = ix2 p q := ⟨y 0, y 1, eq_ix2 y⟩
  exact outAt_eq m c t h3 p q

/-- WHAT A FLUSHING POINT WRITES BACK is its block of `Kspec` of the arrays as the region finds them. -/
theorem flushed_eq (c : Dev nD) (t : Fin cfg0.N) (hf : (cfg0.win 3).flush t = true) :
    (dats m 0 c).flushed 3 t
      = ((cfg0.win 3).blk t).view.read (Elt Ideal) (Kspec (Xarr m c) (WTarr m c) (Barr m c)) := by
  have h3 : t.val % 4 = 3 := (flush0_3 t).mp hf
  obtain ⟨-, -, -, -, -, -, e0, e1⟩ := idx_facts t
  show (cfg0.win 3).cut (grid0.coords t) ((dats m 0 c).after 3 t) = _
  rw [after0_3]
  funext j
  show (outsAt0 m c t.val t.isLt).1 j = Kspec (Xarr m c) (WTarr m c) (Barr m c) (((cfg0.win 3).blk t).view.emb j)
  have hj : ((cfg0.win 3).blk t).view.emb j = ix2 (rowIx t (j 0)) (colIx t (j 1)) := funext fun a => Fin.ext (by
    match a with
    | ⟨0, _⟩ => show win0_3.index t (0 : Fin 2) * 1024 + 1 * (j 0).val = t.val / 16 * 1024 + (j 0).val; rw [e0]; omega
    | ⟨1, _⟩ => show win0_3.index t (1 : Fin 2) * 1024 + 1 * (j 1).val = t.val / 4 % 4 * 1024 + (j 1).val; rw [e1]; omega)
  rw [hj]
  exact outAt_idx m c t h3 j

/-- Every index of the result array is in the block of some flushing point: row block i₀ / 1024, column block
    i₁ / 1024, last contraction step. -/
theorem cover (i : S16384x4096.Idx) :
    ∃ t : Fin cfg0.N, (cfg0.win 3).flush t = true ∧ i ∈ ((cfg0.win 3).blk t).view.set := by
  have h0 : (i 0).val < 16384 := (i 0).isLt
  have h1 : (i 1).val < 4096 := (i 1).isLt
  have hN := N_eq
  let t : Fin cfg0.N := ⟨((i 0).val / 1024 * 4 + (i 1).val / 1024) * 4 + 3, by omega⟩
  have ht : t.val = ((i 0).val / 1024 * 4 + (i 1).val / 1024) * 4 + 3 := rfl
  obtain ⟨-, -, -, -, -, -, e0, e1⟩ := idx_facts t
  refine ⟨t, (flush0_3 t).mpr (by omega), ?_⟩
  show i ∈ ((View.whole main_v10).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 1024 ≤ (i 1).val ∧ (i 1).val < win0_3.index t (1 : Fin 2) * 1024 + 1024
    rw [e1]; omega

/-- THE RESULT ARRAY after the run. -/
theorem final (c : Dev nD) : (dats m 0 c).arrAt 3 cfg0.N = Kspec (Xarr m c) (WTarr m c) (Barr m c) :=
  (dats m 0 c).arrAt_eq_of_cover 3 (Kspec (Xarr m c) (WTarr m c) (Barr m c)) (flushed_eq m c) cover

/-- The program's result: the host operation after the region reshapes the result array to [4, 4096, 4096]. -/
theorem tail_eq (c : Dev nD) :
    Pipeline.afterTail₀ cfgs (dats m) 0 (V0 m) [hostOps1] c main_v11
      = shapeCast S4x4096x4096 (Kspec (Xarr m c) (WTarr m c) (Barr m c)) shapeCasts_S16384x4096_S4x4096x4096 := by
  unfold Pipeline.afterTail₀
  show StableHlo.after hostOps1 _ (Proc.devRef .tc main_v11) = _
  after_results
  have hw : Pipeline.withArrays (cfgs 0).spec c (V0 m c) (fun w => (dats m 0 c).arrAt w (cfgs 0).N) (Proc.devRef .tc main_v10)
      = Kspec (Xarr m c) (WTarr m c) (Barr m c) :=
    (Pipeline.withArrays_arr spec0 launch0.win.arr_inj c (V0 m c) (fun w => (dats m 0 c).arrAt w cfg0.N) 3).trans (final m c)
  funext i
  exact congrFun (congrArg (fun A => shapeCast S4x4096x4096 A shapeCasts_S16384x4096_S4x4096x4096) hw) i

/-- The kernel's result, as the program's run leaves it: the reshaped result array, every argument unchanged. -/
abbrev result (c : Dev nD) : Buf (Elt Ideal) ((c : Thread nD τ).loc main_v11) :=
  shapeCast S4x4096x4096 (Kspec (Xarr m c) (WTarr m c) (Barr m c)) shapeCasts_S16384x4096_S4x4096x4096

/-- THE RUN, READ: every weakly fair execution ends with the result buffer at `result` and the arguments as launched. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KV

end
-- ==== Proof.HostPrefix.lean ====
/-
  What the region finds in its three input arrays: the flattened activations (a reshape of x, then a change of float
  format), the transposed effective weight (W0 + Δ, transposed, then a change of float format), and the bias as one row;
  Δ = ¼ · kron(w1, w2a · w2b) is the delta weight, built by the host operations before the region.
-/
import proofs.«100318_j86646670229807_1_alg».proof.Proof.Gen.KernelIdeal.Frame
import Idealize.ShloMosaic.Lib.StableHlo.Run

noncomputable section

namespace Cert.KernelIdeal.KV

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The delta weight, as the host operations before the region compute it from the three small arguments:
    the Kronecker product of w1 with w2a · w2b, times the scale ¼. -/
def deltaW (x3 : FVec F S64x64 .f32) (x4 : FVec F S64x4 .f32) (x5 : FVec F S4x64 .f32) : FVec F S4096x4096 .f32 :=
  mulf (shapeCast S4096x4096 (mulf
      (broadcastInDim S64x64x64x64 ![0, 1, 2, 3] bcast_S64x1x64x1_S64x64x64x64_0_1_2_3 (broadcastInDim S64x1x64x1 ![0, 2] bcast_S64x64_S64x1x64x1_0_2 x3))
      (broadcastInDim S64x64x64x64 ![0, 1, 2, 3] bcast_S1x64x1x64_S64x64x64x64_0_1_2_3 (broadcastInDim S1x64x1x64 ![1, 3] bcast_S64x64_S1x64x1x64_1_3
        (Host.dotGeneral dot_S64x4_S4x64_S64x64_1_0_0_1_n_n none x4 x5))))
      shapeCasts_S64x64x64x64_S4096x4096)
    (broadcastInDim S4096x4096 ![] bcast_S_S4096x4096 (constant S_ .f32 0x3E800000#32))

/-- The left operand's array: x flattened to [16384, 4096]. -/
theorem V_main_v7 (c : Dev nD) :
    (V m c main_v7 : S16384x4096.Idx → Elt F .bf16)
      = truncf .bf16 (shapeCast S16384x4096 (m ((c : Thread nD τ).loc main_arg0)) shapeCasts_S4x4096x4096_S16384x4096) bitsLt_bf16_f32 := by
  dsimp only [V, V0]
  simp only [hostOps0, hostOps0_1, hostOps0_2, List.flatten_cons, List.flatten_nil, List.append_nil, List.cons_append, List.nil_append]
  after_results
  rfl

/-- The right operand's array: (W0 + Δ) transposed. -/
theorem V_main_v8 (c : Dev nD) :
    (V m c main_v8 : S4096x4096.Idx → Elt F .bf16)
      = truncf .bf16 (transpose S4096x4096 [1, 0] (addf (m ((c : Thread nD τ).loc main_arg1))
          (deltaW (m ((c : Thread nD τ).loc main_arg3)) (m ((c : Thread nD τ).loc main_arg4)) (m ((c : Thread nD τ).loc main_arg5))))
          transposes_S4096x4096_S4096x4096_1_0) bitsLt_bf16_f32 := by
  dsimp only [V, V0]
  simp only [hostOps0, hostOps0_1, hostOps0_2, List.flatten_cons, List.flatten_nil, List.append_nil, List.cons_append, List.nil_append]
  after_results
  rfl

/-- The bias array: b as one row. -/
theorem V_main_v9 (c : Dev nD) :
    (V m c main_v9 : S1x4096.Idx → Elt F .f32) = shapeCast S1x4096 (m ((c : Thread nD τ).loc main_arg2)) shapeCasts_S4096_S1x4096 := by
  dsimp only [V, V0]
  simp only [hostOps0, hostOps0_1, hostOps0_2, List.flatten_cons, List.flatten_nil, List.append_nil, List.cons_append, List.nil_append]
  after_results
  rfl

end Cert.KernelIdeal.KV

end
-- ==== Proof.RefValue.lean ====
/-
  The reference's result, read at an index at the ideal instance: at (b, s, o) it is
  (Σ_k x[b,s,k] · W0[o,k] + bias[o]) + Σ_k x[b,s,k] · Δ[o,k], where Δ = ¼ · kron(w1, w2a · w2b) is the delta weight the
  program builds from its three small arguments; and Δ's entries are real numbers when those arguments' entries are.
-/
import proofs.«100318_j86646670229807_1_alg».proof.Defs
import proofs.«100318_j86646670229807_1_alg».proof.Proof.Gen.ReferenceIdeal
import proofs.«100318_j86646670229807_1_alg».proof.Proof.Gen.ReferenceIdeal.Run
import proofs.«100318_j86646670229807_1_alg».proof.Proof.Gen.ReferenceIdeal.Read
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Read

/-- The reference at (b, s, o): the frozen linear layer's entry plus the delta weight's contribution. -/
theorem ref_apply (x0 : FVec Ideal S4x4096x4096 .f32) (x1 : FVec Ideal S4096x4096 .f32) (x2 : FVec Ideal S4096 .f32)
    (x3 : FVec Ideal S64x64 .f32) (x4 : FVec Ideal S64x4 .f32) (x5 : FVec Ideal S4x64 .f32)
    (b : Fin 4) (s : Fin 4096) (o : Fin 4096) :
    val_main_v9 (F := Ideal) x0 x1 x2 x3 x4 x5 (ix3 b s o)
      = (∑ k : Fin 4096, x0 (ix3 b s k) * x1 (ix2 o k) + x2 (ix1 o))
        + ∑ k : Fin 4096, x0 (ix3 b s k) * val_main_v7 (F := Ideal) x3 x4 x5 (ix2 o k) := by
  rw [val_main_v9_apply, val_main_v3_apply, val_main_v0_apply, val_main_v2_apply, val_main_v1_apply,
    val_main_v8_apply]
  simp only [Ideal.addf_def]
  -- the composed index functions are the coordinate-built indices
  have el0 : ∀ k : Fin 4096, lidx_main_v0 (ix3 b s o) k = ix3 b s k := fun k =>
    funext fun a => Fin.ext (by match a with | ⟨0, _⟩ => rfl | ⟨1, _⟩ => rfl | ⟨2, _⟩ => rfl)
  have er0 : ∀ k : Fin 4096, ridx_main_v0 (ix3 b s o) k = ix2 o k := fun k =>
    funext fun a => Fin.ext (by match a with | ⟨0, _⟩ => rfl | ⟨1, _⟩ => rfl)
  have eb : idx_main_v1 (idx_main_v2 (ix3 b s o)) = ix1 o :=
    funext fun a => Fin.ext (by match a with | ⟨0, _⟩ => rfl)
  have el8 : ∀ k : Fin 4096, lidx_main_v8 (ix3 b s o) k = ix3 b s k := fun k =>
    funext fun a => Fin.ext (by match a with | ⟨0, _⟩ => rfl | ⟨1, _⟩ => rfl | ⟨2, _⟩ => rfl)
  have er8 : ∀ k : Fin 4096, ridx_main_v8 (ix3 b s o) k = ix2 o k := fun k =>
    funext fun a => Fin.ext (by match a with | ⟨0, _⟩ => rfl | ⟨1, _⟩ => rfl)
  simp only [el0, er0, eb, el8, er8]

/-- The pattern 0x3E800000 (sign 0, exponent 125, fraction 0) denotes the real number 2^23 · 2^(125 - 127 - 23) = 1/4. -/
private theorem ofBits_quarter : Ideal.ofBits .f32 0x3E800000#32 = ((1 / 4 : ℝ) : EReal) := by
  simp [Ideal.ofBits, Ideal.ieee, -EReal.coe_mul]; norm_num

/-- A finite sum of real numbers (as extended reals) is a real number. -/
private theorem sum_real {ι : Type} (t : Finset ι) (f : ι → EReal) (h : ∀ k, ∃ r : ℝ, f k = (r : EReal)) :
    ∃ r : ℝ, ∑ k ∈ t, f k = (r : EReal) := by
  classical
  induction t using Finset.induction_on with
  | empty => exact ⟨0, by simp⟩
  | insert a t ha ih =>
    obtain ⟨r, hr⟩ := ih
    obtain ⟨q, hq⟩ := h a
    exact ⟨q + r, by rw [Finset.sum_insert ha, hq, hr, EReal.coe_add]⟩

/-- The delta weight's entries are real numbers when the three small arguments' entries are. -/
theorem delta_real (x3 : FVec Ideal S64x64 .f32) (x4 : FVec Ideal S64x4 .f32) (x5 : FVec Ideal S4x64 .f32)
    (h3 : ∀ i, ∃ r : ℝ, x3 i = (r : EReal)) (h4 : ∀ i, ∃ r : ℝ, x4 i = (r : EReal)) (h5 : ∀ i, ∃ r : ℝ, x5 i = (r : EReal)) :
    ∀ i, ∃ r : ℝ, val_main_v7 (F := Ideal) x3 x4 x5 i = (r : EReal) := by
  intro i
  rw [val_main_v7_apply, val_main_v5_apply, val_main_call0_v4_apply, val_main_call0_v2_apply,
    val_main_call0_v0_apply, val_main_call0_v3_apply, val_main_call0_v1_apply, val_main_v4_apply,
    val_main_v6_apply, val_main_cst_apply]
  simp only [Ideal.mulf_def, Ideal.ofBits_def]
  -- the entry is (x3(·) * Σ_k x4(·) * x5(·)) * ¼, a product of real numbers
  obtain ⟨r3, e3⟩ := h3 (idx_main_call0_v0 (idx_main_call0_v2 (idx_main_v5 i)))
  obtain ⟨rs, es⟩ := sum_real Finset.univ
    (fun k : Fin 4 => x4 (lidx_main_v4 (idx_main_call0_v1 (idx_main_call0_v3 (idx_main_v5 i))) k)
      * x5 (ridx_main_v4 (idx_main_call0_v1 (idx_main_call0_v3 (idx_main_v5 i))) k))
    (fun k => by
      obtain ⟨r4, e4⟩ := h4 (lidx_main_v4 (idx_main_call0_v1 (idx_main_call0_v3 (idx_main_v5 i))) k)
      obtain ⟨r5, e5⟩ := h5 (ridx_main_v4 (idx_main_call0_v1 (idx_main_call0_v3 (idx_main_v5 i))) k)
      exact ⟨r4 * r5, by rw [e4, e5, EReal.coe_mul]⟩)
  refine ⟨r3 * rs * (1 / 4 : ℝ), ?_⟩
  rw [e3, es, ofBits_quarter, EReal.coe_mul, EReal.coe_mul]

end Cert.ReferenceIdeal.RefValue

end
-- ==== Proof.Finite.lean ====
/-
  What the precondition says at the ideal instance: every entry of every argument is a real number.
  The printed predicate is the conjunction, argument by argument, of "all entries have |x| < +∞"; an extended real
  whose absolute value is below +∞ is neither infinity, hence a real.
-/
import proofs.«100318_j86646670229807_1_alg».proof.Pre_finite_inputs
import proofs.«100318_j86646670229807_1_alg».proof.Proof.Gen.Pre_finite_inputs
import Idealize.ShloMosaic.PureOps.Ideal.Laws
import Idealize.ShloMosaic.Lib.ReduceAll
import Idealize.ShloMosaic.Lib.ValueIdx

noncomputable section

namespace Cert.Pre_finite_inputs.Finite

open Idealize.ShloMosaic Cert.Pre_finite_inputs

/-- The pattern 0x7F800000 denotes +∞. -/
private theorem ofBits_inf : Ideal.ofBits .f32 0x7F800000#32 = (⊤ : EReal) := by
  simp [Ideal.ofBits, Ideal.ieee]

/-- An extended real whose absolute value `max a (-a)` is below +∞ is a real number. -/
private theorem real_of_abs_lt_top (a : EReal) (h : max a (-a) < ⊤) : ∃ r : ℝ, a = (r : EReal) := by
  induction a using EReal.rec with
  | bot => simp at h
  | coe r => exact ⟨r, rfl⟩
  | top => simp at h

/-- The scalar shape has one index. -/
private instance subsingleton_S_ : Subsingleton S_.Idx := ⟨fun _ _ => funext fun d => d.elim0⟩

/-- One argument: if the conjunction over all entries of `|x| < +∞` is 1, every entry of `x` is a real number. -/
private theorem all_real {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant (F := Ideal) S_ .f32 0x7F800000#32))) init hr hu j = 1#1) :
    ∀ i, ∃ r : ℝ, x i = (r : EReal) := by
  intro i
  have h1 := Host.reduce_andi_all _ init hr hu j e i
  have h2 : Ideal.cmp .olt (max (x i) (-(x i))) (Ideal.ofBits .f32 0x7F800000#32) = 1#1 := h1
  rw [ofBits_inf] at h2
  refine real_of_abs_lt_top (x i) ?_
  by_contra hn
  simp [Ideal.cmp, hn] at h2

/-- Under the precondition every entry of each of the six arguments is a real number. -/
theorem real_of_pre [Cert.Pre_finite_inputs.Facts] (x0 : FVec Ideal S4x4096x4096 .f32) (x1 : FVec Ideal S4096x4096 .f32) (x2 : FVec Ideal S4096 .f32)
    (x3 : FVec Ideal S64x64 .f32) (x4 : FVec Ideal S64x4 .f32) (x5 : FVec Ideal S4x64 .f32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) := by
  have h0 := congrFun h ValueIdx.ix0
  dsimp only [fn, fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨all_real x0 _ _ _ _ _ h0', all_real x1 _ _ _ _ _ h1, all_real x2 _ _ _ _ _ h2,
    all_real x3 _ _ _ _ _ h3, all_real x4 _ _ _ _ _ h4, all_real x5 _ _ _ _ _ h5⟩

end Cert.Pre_finite_inputs.Finite

end
-- ==== Proof.Bridge.lean ====
/-
  The two results are one function of the arguments. At (b, s, o) the kernel's reshaped result reads row 4096 b + s of
  the flattened activations, i.e. x[b, s, ·]; column o of the transposed effective weight, i.e. (W0 + Δ)[o, ·]; and
  bias[o]: it is the chain of four block sums of x[b,s,k] · (W0[o,k] + Δ[o,k]) plus bias[o]. The reference's entry is
  (Σ_k x[b,s,k] · W0[o,k] + bias[o]) + Σ_k x[b,s,k] · Δ[o,k]. With every entry real the two are equal; Δ is the same
  term of the three small arguments in both programs.
-/
import proofs.«100318_j86646670229807_1_alg».proof.Proof.KernelValue
import proofs.«100318_j86646670229807_1_alg».proof.Proof.HostPrefix
import proofs.«100318_j86646670229807_1_alg».proof.Proof.RefValue
import proofs.«100318_j86646670229807_1_alg».proof.Proof.Finite
import proofs.«100318_j86646670229807_1_alg».proof.Proof.Algebra

noncomputable section

namespace Cert.KernelIdeal.KV

open Cert.KernelIdeal Cert.KernelIdeal.Gen
open Idealize.ShloMosaic Idealize.ShloMosaic.TcCoe Idealize.SL.Sem Idealize.ShloMosaic.ValueIdx

/-- Row 4096 b + s of the flattened activations. -/
def flatRow (b : Fin 4) (s : Fin 4096) : Fin 16384 := ⟨b.val * 4096 + s.val, by have := b.isLt; have := s.isLt; omega⟩

/-- The flattened activations at (4096 b + s, k) are x[b, s, k]. -/
theorem flat_apply (x0 : FVec Ideal S4x4096x4096 .f32) (b : Fin 4) (s k : Fin 4096) :
    (truncf .bf16 (shapeCast S16384x4096 x0 shapeCasts_S4x4096x4096_S16384x4096) bitsLt_bf16_f32 : FVec Ideal S16384x4096 .bf16)
        (ix2 (flatRow b s) k) = x0 (ix3 b s k) := by
  rw [truncf_apply]
  exact shapeCast_apply x0 shapeCasts_S4x4096x4096_S16384x4096 _ (ix3 b s k) (by
    rw [Shape.rowMajor_val_three, Shape.rowMajor_val_two]
    show (b.val * 4096 + s.val) * 4096 + k.val = (b.val * 4096 + s.val) * 4096 + k.val
    rfl)

/-- The transposed effective weight at (k, o) is W0[o, k] + Δ[o, k]. -/
theorem wt_apply (x1 dl : FVec Ideal S4096x4096 .f32) (k o : Fin 4096) :
    (truncf .bf16 (transpose S4096x4096 [1, 0] (addf x1 dl) transposes_S4096x4096_S4096x4096_1_0) bitsLt_bf16_f32 : FVec Ideal S4096x4096 .bf16)
        (ix2 k o) = x1 (ix2 o k) + dl (ix2 o k) := by
  rw [truncf_apply]
  refine (transpose_apply [1, 0] (addf x1 dl) transposes_S4096x4096_S4096x4096_1_0 (ix2 k o) (ix2 o k) (fun a => ?_)).trans ?_
  · match a with
    | ⟨0, _⟩ => rfl
    | ⟨1, _⟩ => rfl
  · rfl

/-- The bias row at (0, o) is bias[o]. -/
theorem bias_apply (x2 : FVec Ideal S4096 .f32) (o : Fin 4096) :
    (shapeCast S1x4096 x2 shapeCasts_S4096_S1x4096 : FVec Ideal S1x4096 .f32) (ix2 (0 : Fin 1) o) = x2 (ix1 o) :=
  shapeCast_apply x2 shapeCasts_S4096_S1x4096 _ (ix1 o) (by
    rw [Shape.rowMajor_val_one, Shape.rowMajor_val_two]
    show o.val = 0 * 4096 + o.val
    omega)

/-- THE KERNEL'S RESULT AT (b, s, o), in terms of the arguments and the delta weight. -/
theorem kernel_apply (x0 : FVec Ideal S4x4096x4096 .f32) (x1 dl : FVec Ideal S4096x4096 .f32) (x2 : FVec Ideal S4096 .f32)
    (b : Fin 4) (s o : Fin 4096) :
    shapeCast S4x4096x4096 (Kspec
        (truncf .bf16 (shapeCast S16384x4096 x0 shapeCasts_S4x4096x4096_S16384x4096) bitsLt_bf16_f32)
        (truncf .bf16 (transpose S4096x4096 [1, 0] (addf x1 dl) transposes_S4096x4096_S4096x4096_1_0) bitsLt_bf16_f32)
        (shapeCast S1x4096 x2 shapeCasts_S4096_S1x4096)) shapeCasts_S16384x4096_S4x4096x4096 (ix3 b s o)
      = Cert.LoKr.partialSum (fun k => x0 (ix3 b s k) * (x1 (ix2 o k) + dl (ix2 o k))) 3 + x2 (ix1 o) := by
  refine (shapeCast_apply _ shapeCasts_S16384x4096_S4x4096x4096 (ix3 b s o) (ix2 (flatRow b s) o) (by
    rw [Shape.rowMajor_val_three, Shape.rowMajor_val_two]
    show (b.val * 4096 + s.val) * 4096 + o.val = (b.val * 4096 + s.val) * 4096 + o.val
    rfl)).trans ?_
  show Cert.LoKr.partialSum (fun k => _ * _) 3 + _ = _
  rw [bias_apply]
  refine congrArg (· + x2 (ix1 o)) (congrArg (fun f => Cert.LoKr.partialSum f 3) (funext fun k => ?_))
  show (truncf .bf16 (shapeCast S16384x4096 x0 shapeCasts_S4x4096x4096_S16384x4096) bitsLt_bf16_f32 : FVec Ideal S16384x4096 .bf16) (ix2 (flatRow b s) k)
      * (truncf .bf16 (transpose S4096x4096 [1, 0] (addf x1 dl) transposes_S4096x4096_S4096x4096_1_0) bitsLt_bf16_f32 : FVec Ideal S4096x4096 .bf16) (ix2 k o) = _
  rw [flat_apply, wt_apply]

/-- The delta weight is the same term of the three small arguments in both programs. -/
theorem deltaW_eq (x3 : FVec Ideal S64x64 .f32) (x4 : FVec Ideal S64x4 .f32) (x5 : FVec Ideal S4x64 .f32) :
    deltaW (F := Ideal) x3 x4 x5 = Cert.ReferenceIdeal.Read.val_main_v7 (F := Ideal) x3 x4 x5 := rfl

/-- THE BRIDGE: with every argument entry real, the kernel's result of the arguments is the reference's. -/
theorem result_eq (x0 : FVec Ideal S4x4096x4096 .f32) (x1 : FVec Ideal S4096x4096 .f32) (x2 : FVec Ideal S4096 .f32)
    (x3 : FVec Ideal S64x64 .f32) (x4 : FVec Ideal S64x4 .f32) (x5 : FVec Ideal S4x64 .f32)
    (h0 : ∀ i, ∃ r : ℝ, x0 i = (r : EReal)) (h1 : ∀ i, ∃ r : ℝ, x1 i = (r : EReal))
    (h3 : ∀ i, ∃ r : ℝ, x3 i = (r : EReal)) (h4 : ∀ i, ∃ r : ℝ, x4 i = (r : EReal)) (h5 : ∀ i, ∃ r : ℝ, x5 i = (r : EReal)) :
    shapeCast S4x4096x4096 (Kspec
        (truncf .bf16 (shapeCast S16384x4096 x0 shapeCasts_S4x4096x4096_S16384x4096) bitsLt_bf16_f32)
        (truncf .bf16 (transpose S4096x4096 [1, 0] (addf x1 (deltaW (F := Ideal) x3 x4 x5)) transposes_S4096x4096_S4096x4096_1_0) bitsLt_bf16_f32)
        (shapeCast S1x4096 x2 shapeCasts_S4096_S1x4096)) shapeCasts_S16384x4096_S4x4096x4096
      = Cert.ReferenceIdeal.Read.val_main_v9 (F := Ideal) x0 x1 x2 x3 x4 x5 := by
  funext i
  obtain ⟨b, s, o, rfl⟩ : ∃ (b : Fin 4) (s o : Fin 4096), i = ix3 b s o := ⟨i 0, i 1, i 2, eq_ix3 i⟩
  rw [kernel_apply, deltaW_eq]
  refine (Cert.LoKr.join (fun k => x0 (ix3 b s k)) (fun k => x1 (ix2 o k))
    (fun k => Cert.ReferenceIdeal.Read.val_main_v7 (F := Ideal) x3 x4 x5 (ix2 o k)) (x2 (ix1 o))
    (fun k => h0 _) (fun k => h1 _) (fun k => Cert.ReferenceIdeal.RefValue.delta_real x3 x4 x5 h3 h4 h5 _)).trans ?_
  exact (Cert.ReferenceIdeal.RefValue.ref_apply x0 x1 x2 x3 x4 x5 b s o).symm

end Cert.KernelIdeal.KV

end
-- ==== Proof.lean ====
/-
  The certificate: a linear layer with a Kronecker-factored low-rank update of its weight, x ↦ x · (W0 + Δ)ᵀ + b with
  Δ = ¼ · kron(w1, w2a · w2b), as one tiled matrix product with bias, against the reference
  (x · W0ᵀ + b) + x · Δᵀ.

  The kernel flattens x to [16384, 4096], adds Δ into the weight on the host, and computes the product in 1024 × 1024
  blocks: the contracted axis is cut into four steps, a scratch block carries the running sum from zero through the
  four steps, and the last step stores the sum plus the bias row. The reference computes two full-length contractions
  and adds them. Over the extended reals a change of float format is the identity, so the kernel's entry (b, s, o) is
  (((0 + S₀) + S₁) + S₂) + S₃ + bias[o] with Sⱼ the sum of x[b,s,k] · (W0[o,k] + Δ[o,k]) over block j of the contracted
  axis, and the reference's is (Σ_k x[b,s,k] · W0[o,k] + bias[o]) + Σ_k x[b,s,k] · Δ[o,k]. They are equal when every
  entry is a real number — the blocks partition the axis and x · (w + d) = x · w + x · d — and the precondition says
  exactly that of the arguments; Δ, a product of a finite sum of products of real entries with ¼, is then real too.

  The three frames are the generated ones (the reference's is its generated run with the result dropped); the ideal pass
  rewrote nothing, so the idealization claim is trivial.
-/
import proofs.«100318_j86646670229807_1_alg».proof.Defs
import proofs.«100318_j86646670229807_1_alg».proof.Proof.Gen.Kernel
import proofs.«100318_j86646670229807_1_alg».proof.Proof.Gen.Kernel.Skeleton
import proofs.«100318_j86646670229807_1_alg».proof.Proof.Gen.Kernel.Launch
import proofs.«100318_j86646670229807_1_alg».proof.Proof.Gen.Kernel.Points
import proofs.«100318_j86646670229807_1_alg».proof.Proof.Gen.Kernel.Frame
import proofs.«100318_j86646670229807_1_alg».proof.Proof.Gen.KernelIdeal
import proofs.«100318_j86646670229807_1_alg».proof.Proof.Gen.KernelIdeal.Skeleton
import proofs.«100318_j86646670229807_1_alg».proof.Proof.Gen.KernelIdeal.Launch
import proofs.«100318_j86646670229807_1_alg».proof.Proof.Gen.KernelIdeal.Points
import proofs.«100318_j86646670229807_1_alg».proof.Proof.Gen.KernelIdeal.Frame
import proofs.«100318_j86646670229807_1_alg».proof.Proof.Gen.ReferenceIdeal
import proofs.«100318_j86646670229807_1_alg».proof.Proof.Gen.ReferenceIdeal.Run
import proofs.«100318_j86646670229807_1_alg».proof.Proof.Gen.ReferenceIdeal.Read
import proofs.«100318_j86646670229807_1_alg».proof.Proof.Gen.Pre_finite_inputs
import proofs.«100318_j86646670229807_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result in terms of the arguments' launch contents: the three arrays the region reads are the
    flattened x, the transposed W0 + Δ, and b as a row. -/
theorem result_args (m : (ℓ : Loc Cert.KernelIdeal.nD Cert.KernelIdeal.τ Cert.KernelIdeal.sig) → Buf (Elt Ideal) ℓ) (c : Dev Cert.KernelIdeal.nD) :
    Cert.KernelIdeal.KV.result m c
      = shapeCast Cert.KernelIdeal.S4x4096x4096 (Cert.KernelIdeal.KV.Kspec
          (truncf (F := Ideal) .bf16 (shapeCast Cert.KernelIdeal.S16384x4096 (m ((c : Thread Cert.KernelIdeal.nD Cert.KernelIdeal.τ).loc Cert.KernelIdeal.main_arg0)) Cert.KernelIdeal.Facts₀.shapeCasts_S4x4096x4096_S16384x4096) Cert.KernelIdeal.Facts₀.bitsLt_bf16_f32)
          (truncf (F := Ideal) .bf16 (transpose Cert.KernelIdeal.S4096x4096 [1, 0] (addf (F := Ideal) (m ((c : Thread Cert.KernelIdeal.nD Cert.KernelIdeal.τ).loc Cert.KernelIdeal.main_arg1))
            (Cert.KernelIdeal.KV.deltaW (F := Ideal) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5))))
            Cert.KernelIdeal.Facts₀.transposes_S4096x4096_S4096x4096_1_0) Cert.KernelIdeal.Facts₀.bitsLt_bf16_f32)
          (shapeCast Cert.KernelIdeal.S1x4096 (m ((c : Thread Cert.KernelIdeal.nD Cert.KernelIdeal.τ).loc Cert.KernelIdeal.main_arg2)) Cert.KernelIdeal.Facts₀.shapeCasts_S4096_S1x4096))
          Cert.KernelIdeal.Facts₀.shapeCasts_S16384x4096_S4x4096x4096 := by
  show shapeCast Cert.KernelIdeal.S4x4096x4096 (Cert.KernelIdeal.KV.Kspec (Cert.KernelIdeal.Gen.V m c Cert.KernelIdeal.main_v7)
    (Cert.KernelIdeal.Gen.V m c Cert.KernelIdeal.main_v8) (Cert.KernelIdeal.Gen.V m c Cert.KernelIdeal.main_v9)) _ = _
  rw [Cert.KernelIdeal.KV.V_main_v7 m c, Cert.KernelIdeal.KV.V_main_v8 m c, Cert.KernelIdeal.KV.V_main_v9 m c]

/-- At the ideal instance both programs end with the same result: the kernel's run leaves its result buffer at the
    reshaped block-accumulated product, the reference's run at its two contractions' sum, of arguments that agree and
    whose entries the precondition makes real. -/
theorem algebraic : Cert.algebraic_KernelIdeal_ReferenceIdeal := by
  intro m ρ m' ρ' hpre hagree
  refine ⟨fun c => Cert.KernelIdeal.KV.result m c, Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  obtain ⟨r0, r1, r2, r3, r4, r5⟩ := Cert.Pre_finite_inputs.Finite.real_of_pre _ _ _ _ _ _ (hpre c)
  show _ = Cert.KernelIdeal.KV.result m c
  rw [a0, a1, a2, a3, a4, a5, Cert.ReferenceIdeal.Read.val_main_v9_eq, result_args m c]
  exact (Cert.KernelIdeal.KV.result_eq _ _ _ _ _ _ r0 r1 r3 r4 r5).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
